-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S4000x128 : Shape := ⟨2, ![4000, 128]⟩
abbrev S4000x64 : Shape := ⟨2, ![4000, 64]⟩
abbrev S1700000x64 : Shape := ⟨2, ![1700000, 64]⟩
abbrev S1x64 : Shape := ⟨2, ![1, 64]⟩
abbrev S100000x1 : Shape := ⟨2, ![100000, 1]⟩
abbrev S4000x1 : Shape := ⟨2, ![4000, 1]⟩
abbrev S1x1 : Shape := ⟨2, ![1, 1]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x1, .f32⟩
  | .hbm, ⟨79, _⟩ => ⟨S1700000x1, .f32⟩
  | .hbm, ⟨80, _⟩ => ⟨S1700000x1, .f32⟩
  | .hbm, ⟨81, _⟩ => ⟨S_, .f32⟩
  | .hbm, ⟨82, _⟩ => ⟨S100000x1, .f32⟩
  | .hbm, ⟨83, _⟩ => ⟨S1700000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x1, .f32⟩
  | .local _ .vmem, ⟨8, _⟩ => ⟨S4000x1, .f32⟩
  | .local _ .vmem, ⟨9, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S4000x64_S4000x64 : S4000x64.ShapeCasts S4000x64
  inb_S64x1_S64x1_0_0 : ∀ a, (![0, 0] : Fin 2 → Nat) a + S64x1.size a ≤ S64x1.size a
  h_S64x1 : 0 < S64x1.numel
  inb_S4000x1_S4000x1_0_0 : ∀ a, (![0, 0] : Fin 2 → Nat) a + S4000x1.size a ≤ S4000x1.size a
  h_S4000x1 : 0 < S4000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4000x64_S64x1_S4000x1_1_0_0_1_n_n_wf : DotDims.WF S4000x64 S64x1 S4000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x1, .f32⟩
  | .hbm, ⟨79, _⟩ => ⟨S1700000x1, .f32⟩
  | .hbm, ⟨80, _⟩ => ⟨S1700000x1, .f32⟩
  | .hbm, ⟨81, _⟩ => ⟨S_, .f32⟩
  | .hbm, ⟨82, _⟩ => ⟨S100000x1, .f32⟩
  | .hbm, ⟨83, _⟩ => ⟨S1700000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.MatProduct.lean ====
/-
  The product of an M×K array with a K×N array over the extended reals, as one function of the two arrays:
  entry (p, q) is the sum over k of L[p,k] · R[k,q]. Both ways the programs compute it are this function: the
  vector unit's product into a zero accumulator of the two operands after their change of float format (the
  identity on extended reals), and the host's dot_general. Sums over a finite index set in a commutative monoid
  do not depend on an order, and no cancellation or distribution is used, so nothing here asks the entries to be finite.
-/
import proofs.«180120_j1563368096536_1_alg».proof.Proof.LibPlainDot

noncomputable section

open scoped BigOperators

namespace Cert.MatProduct

open Idealize.ShloMosaic Idealize.ShloMosaic.ValueIdx

variable {M K N : Nat}

/-- Entry (p, q) of the product: the row p of `L` against the column q of `R`. -/
def prod (L : FVec Ideal ⟨2, ![M, K]⟩ .f32) (R : FVec Ideal ⟨2, ![K, N]⟩ .f32) : FVec Ideal ⟨2, ![M, N]⟩ .f32 :=
  fun i => ∑ k : Fin K, L (ix2 (i 0) k) * R (ix2 k (i 1))

theorem prod_apply (L : FVec Ideal ⟨2, ![M, K]⟩ .f32) (R : FVec Ideal ⟨2, ![K, N]⟩ .f32) (p : Fin M) (q : Fin N) :
    prod L R (ix2 p q) = ∑ k : Fin K, L (ix2 p k) * R (ix2 k q) := rfl

/-- The host's dot_general of the two arrays is their product. -/
theorem host_eq (prec : Option ContractPrecision) (L : FVec Ideal ⟨2, ![M, K]⟩ .f32) (R : FVec Ideal ⟨2, ![K, N]⟩ .f32) :
    Host.dotGeneral (DotDims.plain M K N) prec L R = prod L R := by
  funext i
  obtain ⟨p, q, rfl⟩ : ∃ (p : Fin M) (q : Fin N), i = ix2 p q := ⟨i 0, i 1, eq_ix2 i⟩
  rw [prod_apply]
  exact Cert.PlainDot.dotGeneral_apply prec .single L R p q

/-- The vector unit's product into a zero accumulator, the operands first narrowed to bf16 (no change on the extended
    reals), is their product. -/
theorem unit_eq (prec : Option ContractPrecision) (L : FVec Ideal ⟨2, ![M, K]⟩ .f32) (R : FVec Ideal ⟨2, ![K, N]⟩ .f32)
    (hL : FTy.bf16.bits < FTy.f32.bits) (hR : FTy.bf16.bits < FTy.f32.bits) :
    matmul (DotDims.plain M K N) prec (truncf .bf16 L hL) (truncf .bf16 R hR) (constant ⟨2, ![M, N]⟩ .f32 0x00000000#32) = prod L R := by
  funext i
  obtain ⟨p, q, rfl⟩ : ∃ (p : Fin M) (q : Fin N), i = ix2 p q := ⟨i 0, i 1, eq_ix2 i⟩
  rw [prod_apply]
  exact Cert.PlainDot.matmul_zero_apply prec (truncf .bf16 L hL) (truncf .bf16 R hR) p q

end Cert.MatProduct

end
-- ==== Proof.FirstProduct.lean ====
/-
  The first pallas_call's result array. The grid has 25 points; point t stages rows 4000·t … 4000·t + 3999 of the
  [100000, 128] array and the whole [128, 64] weight array, and writes back rows 4000·t … 4000·t + 3999 of the [100000, 64]
  result: the product of the staged row block with the weights. An entry of the product depends only on its own row
  of the left array, so each written block is the block of ONE array, the product of the whole left array with the
  weights; the 25 blocks tile the result, which therefore ends at that product. All of it holds for whatever contents
  the region finds in its arrays, so it is stated at a parameter `V`.
-/
import proofs.«180120_j1563368096536_1_alg».proof.Proof.Gen.KernelIdeal.Frame
import proofs.«180120_j1563368096536_1_alg».proof.Proof.MatProduct
import Idealize.ShloMosaic.Lib.Pipeline.Value
import Idealize.ShloMosaic.Lib.ValueIdx

noncomputable section

open scoped BigOperators

namespace Cert.KernelIdeal.FirstProduct

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The left array and the weights as the region finds them. -/
abbrev lhsArr (c : Dev nD) : FVec Ideal ⟨2, ![100000, 128]⟩ .f32 := V c main_arg0
abbrev rhsArr (c : Dev nD) : FVec Ideal ⟨2, ![128, 64]⟩ .f32 := V c main_arg2

/-- The two input blocks at a point, at their literal types. -/
abbrev lhsBlk (c : Dev nD) (t : Fin cfg0.N) : FVec Ideal ⟨2, ![4000, 128]⟩ .f32 := iblk0 V c 0 t
abbrev rhsBlk (c : Dev nD) (t : Fin cfg0.N) : FVec Ideal ⟨2, ![128, 64]⟩ .f32 := iblk0 V c 1 t

/-- The body's stored value is the product of its two loaded blocks. -/
theorem pay_eq (x0 : Vec Ideal S4000x128 .f32) (x1 : Vec Ideal S128x64 .f32) :
    k0_pay1 x0 x1 = Cert.MatProduct.prod (M := 4000) (K := 128) (N := 64) x0 x1 :=
  Cert.MatProduct.unit_eq (M := 4000) (K := 128) (N := 64) none x0 x1 bitsLt_bf16_f32 bitsLt_bf16_f32

/-- The printed index maps over the grid: the left array's and the result's blocks move down the rows with the
    point, the weights' block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left array's block at point `t` is its rows 4000·t … 4000·t + 3999. -/
theorem lhs_block (c : Dev nD) (t : Fin cfg0.N) (x : S4000x128.Idx) (i : S100000x128.Idx)
    (h0 : (i 0).val = 4000 * t.val + (x 0).val) (h1 : (i 1).val = (x 1).val) :
    lhsBlk V c t x = lhsArr V c i := by
  obtain ⟨e0, e1, -, -, -, -⟩ := idx_facts t
  show iblk0 V c 0 t x = _
  unfold iblk0
  rw [View.read_apply]
  show V c main_arg0 _ = V c main_arg0 _
  congr 1
  funext a
  apply Fin.ext
  match a with
  | ⟨0, _⟩ => show win0_0.index t 0 * 4000 + 1 * (x 0).val = (i 0).val; rw [e0, h0]; omega
  | ⟨1, _⟩ => show win0_0.index t 1 * 128 + 1 * (x 1).val = (i 1).val; rw [e1, h1]; omega

/-- The weights' block at every point is the whole weight array. -/
theorem rhs_block (c : Dev nD) (t : Fin cfg0.N) (x : S128x64.Idx) :
    rhsBlk V c t x = rhsArr V c x := by
  obtain ⟨-, -, e0, e1, -, -⟩ := idx_facts t
  show iblk0 V c 1 t x = _
  unfold iblk0
  rw [View.read_apply]
  show V c main_arg2 _ = V c main_arg2 _
  congr 1
  funext a
  apply Fin.ext
  match a with
  | ⟨0, _⟩ => show win0_1.index t 0 * 128 + 1 * (x 0).val = (x 0).val; rw [e0]; omega
  | ⟨1, _⟩ => show win0_1.index t 1 * 64 + 1 * (x 1).val = (x 1).val; rw [e1]; omega

/-- What point `t` writes back is block `t` of the product of the two whole arrays. -/
theorem flushed_eq (c : Dev nD) (t : Fin cfg0.N) :
    (dat0 V c).flushed 2 t = ((cfg0.win 2).blk t).view.read (Elt Ideal) (Cert.MatProduct.prod (lhsArr V c) (rhsArr V c)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x64) hz]
  rw [pay_eq]
  obtain ⟨-, -, -, -, e0, e1⟩ := idx_facts t
  funext j
  show (∑ k : Fin 128, lhsBlk V c t (ix2 (j 0) k) * rhsBlk V c t (ix2 k (j 1)))
    = ∑ k : Fin 128, lhsArr V c (ix2 ((((cfg0.win 2).blk t).view.emb j) 0) k) * rhsArr V c (ix2 k ((((cfg0.win 2).blk t).view.emb j) 1))
  refine Finset.sum_congr rfl fun k _ => ?_
  rw [lhs_block V c t (ix2 (j 0) k) (ix2 ((((cfg0.win 2).blk t).view.emb j) 0) k) ?_ rfl, rhs_block V c t (ix2 k (j 1))]
  · refine congrArg (fun z => _ * rhsArr V c (ix2 k z)) (Fin.ext ?_)
    show (j 1).val = win0_2.index t 1 * 64 + 1 * (j 1).val
    rw [e1]; omega
  · show win0_2.index t 0 * 4000 + 1 * (j 0).val = 4000 * t.val + (j 0).val
    rw [e0]; omega

/-- An index of the result lies in point `t`'s block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Every index of the result is in the block of the point its row falls under. -/
theorem cover (i : S100000x64.Idx) : ∃ t : Fin cfg0.N, (cfg0.win 2).flush t = true ∧ i ∈ ((cfg0.win 2).blk t).view.set := by
  have h0 : (i 0).val < 100000 := (i 0).isLt
  have h1 : (i 1).val < 64 := (i 1).isLt
  have hN : cfg0.N = 25 := N_0
  let t : Fin cfg0.N := ⟨(i 0).val / 4000, by rw [hN]; omega⟩
  obtain ⟨-, -, -, -, e0, e1⟩ := idx_facts t
  refine ⟨t, flush0_2 t, ?_⟩
  rw [mem_blk]
  intro a
  have ht : t.val = (i 0).val / 4000 := rfl
  match a with
  | ⟨0, _⟩ => show win0_2.index t 0 * 4000 ≤ (i 0).val ∧ (i 0).val < win0_2.index t 0 * 4000 + 4000; rw [e0, ht]; omega
  | ⟨1, _⟩ => show win0_2.index t 1 * 64 ≤ (i 1).val ∧ (i 1).val < win0_2.index t 1 * 64 + 64; rw [e1]; omega

/-- The result array after the region: the product of the left array with the weights, as the region found them. -/
theorem final (c : Dev nD) : (dat0 V c).arrAt 2 cfg0.N = Cert.MatProduct.prod (lhsArr V c) (rhsArr V c) :=
  (dat0 V c).arrAt_eq_of_cover 2 (Cert.MatProduct.prod (lhsArr V c) (rhsArr V c)) (fun t _ => flushed_eq V c t) cover

end Cert.KernelIdeal.FirstProduct

end
-- ==== Proof.SecondProduct.lean ====
/-
  The second pallas_call's result array. The grid has 25 points; point t stages rows 4000·t … 4000·t + 3999 of the
  [100000, 64] array of hidden features and the whole [64, 1] weight column, and writes back rows 4000·t … 4000·t + 3999
  of the [100000, 1] result: the product of the staged row block with the column (the body first casts the block to its
  own shape, which changes nothing). Each written block is the block of ONE array, the product of the whole feature
  array with the column, and the 25 blocks tile the result. Stated at a parameter `V`: the contents the region finds.
-/
import proofs.«180120_j1563368096536_1_alg».proof.Proof.Gen.KernelIdeal.Frame
import proofs.«180120_j1563368096536_1_alg».proof.Proof.MatProduct
import Idealize.ShloMosaic.Lib.Pipeline.Value
import Idealize.ShloMosaic.Lib.ValueIdx

noncomputable section

open scoped BigOperators

namespace Cert.KernelIdeal.SecondProduct

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The feature array and the weight column as the region finds them. -/
abbrev lhsArr (c : Dev nD) : FVec Ideal ⟨2, ![100000, 64]⟩ .f32 := V c main_v47
abbrev rhsArr (c : Dev nD) : FVec Ideal ⟨2, ![64, 1]⟩ .f32 := V c main_arg4

/-- The two input blocks at a point, at their literal types. -/
abbrev lhsBlk (c : Dev nD) (t : Fin cfg1.N) : FVec Ideal ⟨2, ![4000, 64]⟩ .f32 := iblk1 V c 0 t
abbrev rhsBlk (c : Dev nD) (t : Fin cfg1.N) : FVec Ideal ⟨2, ![64, 1]⟩ .f32 := iblk1 V c 1 t

/-- The body's stored value is the product of its two loaded blocks: the cast of the first block to its own shape is the block. -/
theorem pay_eq (x0 : Vec Ideal S4000x64 .f32) (x1 : Vec Ideal S64x1 .f32) :
    k1_pay1 x0 x1 = Cert.MatProduct.prod (M := 4000) (K := 64) (N := 1) x0 x1 := by
  have e : shapeCast S4000x64 x0 shapeCasts_S4000x64_S4000x64 = x0 := shapeCast_self x0 _
  unfold k1_pay1
  rw [e]
  exact Cert.MatProduct.unit_eq (M := 4000) (K := 64) (N := 1) none x0 x1 bitsLt_bf16_f32 bitsLt_bf16_f32

/-- The printed index maps over the grid: the left array's and the result's blocks move down the rows with the
    point, the weights' block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left array's block at point `t` is its rows 4000·t … 4000·t + 3999. -/
theorem lhs_block (c : Dev nD) (t : Fin cfg1.N) (x : S4000x64.Idx) (i : S100000x64.Idx)
    (h0 : (i 0).val = 4000 * t.val + (x 0).val) (h1 : (i 1).val = (x 1).val) :
    lhsBlk V c t x = lhsArr V c i := by
  obtain ⟨e0, e1, -, -, -, -⟩ := idx_facts t
  show iblk1 V c 0 t x = _
  unfold iblk1
  rw [View.read_apply]
  show V c main_v47 _ = V c main_v47 _
  congr 1
  funext a
  apply Fin.ext
  match a with
  | ⟨0, _⟩ => show win1_0.index t 0 * 4000 + 1 * (x 0).val = (i 0).val; rw [e0, h0]; omega
  | ⟨1, _⟩ => show win1_0.index t 1 * 64 + 1 * (x 1).val = (i 1).val; rw [e1, h1]; omega

/-- The column's block at every point is the whole column. -/
theorem rhs_block (c : Dev nD) (t : Fin cfg1.N) (x : S64x1.Idx) :
    rhsBlk V c t x = rhsArr V c x := by
  obtain ⟨-, -, e0, e1, -, -⟩ := idx_facts t
  show iblk1 V c 1 t x = _
  unfold iblk1
  rw [View.read_apply]
  show V c main_arg4 _ = V c main_arg4 _
  congr 1
  funext a
  apply Fin.ext
  match a with
  | ⟨0, _⟩ => show win1_1.index t 0 * 64 + 1 * (x 0).val = (x 0).val; rw [e0]; omega
  | ⟨1, _⟩ => show win1_1.index t 1 * 1 + 1 * (x 1).val = (x 1).val; rw [e1]; omega

/-- What point `t` writes back is block `t` of the product of the two whole arrays. -/
theorem flushed_eq (c : Dev nD) (t : Fin cfg1.N) :
    (dat1 V c).flushed 2 t = ((cfg1.win 2).blk t).view.read (Elt Ideal) (Cert.MatProduct.prod (lhsArr V c) (rhsArr V c)) := by
  show (cfg1.win 2).cut (grid1.coords t) ((dat1 V c).after 2 t) = _
  rw [after1_2]
  unfold out1_2
  rw [View.canon_unit_zero hz]
  simp only [View.ld_unit_zero (S := S4000x64) hz, View.ld_unit_zero (S := S64x1) hz]
  rw [pay_eq]
  obtain ⟨-, -, -, -, e0, e1⟩ := idx_facts t
  funext j
  show (∑ k : Fin 64, lhsBlk V c t (ix2 (j 0) k) * rhsBlk V c t (ix2 k (j 1)))
    = ∑ k : Fin 64, lhsArr V c (ix2 ((((cfg1.win 2).blk t).view.emb j) 0) k) * rhsArr V c (ix2 k ((((cfg1.win 2).blk t).view.emb j) 1))
  refine Finset.sum_congr rfl fun k _ => ?_
  rw [lhs_block V c t (ix2 (j 0) k) (ix2 ((((cfg1.win 2).blk t).view.emb j) 0) k) ?_ rfl, rhs_block V c t (ix2 k (j 1))]
  · refine congrArg (fun z => _ * rhsArr V c (ix2 k z)) (Fin.ext ?_)
    show (j 1).val = win1_2.index t 1 * 1 + 1 * (j 1).val
    rw [e1]; omega
  · show win1_2.index t 0 * 4000 + 1 * (j 0).val = 4000 * t.val + (j 0).val
    rw [e0]; omega

/-- An index of the result lies in point `t`'s block iff each coordinate is in the block's range on its axis. -/
theorem mem_blk (t : Fin cfg1.N) (i : S100000x1.Idx) :
    i ∈ ((cfg1.win 2).blk t).view.set ↔ ∀ a : Fin 2, win1_2.index t a * S4000x1.size a ≤ (i a).val ∧ (i a).val < win1_2.index t a * S4000x1.size a + S4000x1.size a := by
  show i ∈ ((View.whole main_v48).slice (win1_2.rect t)).set ↔ _
  rw [View.set_slice_whole, Rect.mem_set_unit]
  exact Iff.rfl

/-- Every index of the result is in the block of the point its row falls under. -/
theorem cover (i : S100000x1.Idx) : ∃ t : Fin cfg1.N, (cfg1.win 2).flush t = true ∧ i ∈ ((cfg1.win 2).blk t).view.set := by
  have h0 : (i 0).val < 100000 := (i 0).isLt
  have h1 : (i 1).val < 1 := (i 1).isLt
  have hN : cfg1.N = 25 := N_1
  let t : Fin cfg1.N := ⟨(i 0).val / 4000, by rw [hN]; omega⟩
  obtain ⟨-, -, -, -, e0, e1⟩ := idx_facts t
  refine ⟨t, flush1_2 t, ?_⟩
  rw [mem_blk]
  intro a
  have ht : t.val = (i 0).val / 4000 := rfl
  match a with
  | ⟨0, _⟩ => show win1_2.index t 0 * 4000 ≤ (i 0).val ∧ (i 0).val < win1_2.index t 0 * 4000 + 4000; rw [e0, ht]; omega
  | ⟨1, _⟩ => show win1_2.index t 1 * 1 ≤ (i 1).val ∧ (i 1).val < win1_2.index t 1 * 1 + 1; rw [e1]; omega

/-- The result array after the region: the product of the left array with the weights, as the region found them. -/
theorem final (c : Dev nD) : (dat1 V c).arrAt 2 cfg1.N = Cert.MatProduct.prod (lhsArr V c) (rhsArr V c) :=
  (dat1 V c).arrAt_eq_of_cover 2 (Cert.MatProduct.prod (lhsArr V c) (rhsArr V c)) (fun t _ => flushed_eq V c t) cover

end Cert.KernelIdeal.SecondProduct

end
-- ==== Proof.Spec.lean ====
/-
  The network as one function of its six arguments, over the extended reals.

  A two-layer graph convolution on 100000 nodes and 1600000 edges. Every node gets a self-loop (`sources`, `targets`:
  the two rows of the edge list, each followed by 0 … 99999). The in-degree of a node counts the edges that end there
  (`degree`), and an edge from r to c weighs deg(r)^(-1/2) · deg(c)^(-1/2) (`edgeNorm`; deg^(-1/2) read as 0 where the
  degree is not positive). A layer multiplies the node features by its weights, gathers the rows at the edges' sources,
  scales each by its edge's weight, adds it into the row of the edge's target, and adds the bias (`aggregate64` for
  the 64 hidden features, `aggregate1` for the one output feature); a rectifier (`rectify`) follows the first layer
  and the [100000, 1] result is flattened. Indices are read the way the programs read them: a negative index counts
  from the end (`wrapIdx`), and what gather and scatter do with an index outside the table is theirs.
-/
import proofs.«180120_j1563368096536_1_alg».proof.KernelIdeal
import proofs.«180120_j1563368096536_1_alg».proof.Proof.Gen.KernelIdeal
import proofs.«180120_j1563368096536_1_alg».proof.Proof.MatProduct
import Idealize.ShloMosaic.PureOps.Ideal

noncomputable section

namespace Cert.KernelIdeal.Spec

open Cert.KernelIdeal Cert.KernelIdeal.Gen Idealize.ShloMosaic

/-- The source of every edge: the edge list's first row, then every node once (the self-loops). -/
def sources (e : (⟨S2x1600000, .i32⟩ : BufTy).Contents (Elt Ideal)) : (⟨S1700000, .i32⟩ : BufTy).Contents (Elt Ideal) :=
  concatenate S1700000 0
    [⟨S1600000, shapeCast S1600000 (extractStridedSlice S1x1600000 ![0, 0] e slices_S2x1600000_S1x1600000_0_0) shapeCasts_S1x1600000_S1600000⟩,
      ⟨S100000, iotaInDim S100000 32 0⟩] concatenates_S1600000_S100000_S1700000_d0

/-- The target of every edge: the edge list's second row, then every node once. -/
def targets (e : (⟨S2x1600000, .i32⟩ : BufTy).Contents (Elt Ideal)) : (⟨S1700000, .i32⟩ : BufTy).Contents (Elt Ideal) :=
  concatenate S1700000 0
    [⟨S1600000, shapeCast S1600000 (extractStridedSlice S1x1600000 ![1, 0] e slices_S2x1600000_S1x1600000_1_0) shapeCasts_S1x1600000_S1600000⟩,
      ⟨S100000, iotaInDim S100000 32 0⟩] concatenates_S1600000_S100000_S1700000_d0

/-- A negative index counts from the end: the node count is added to it. -/
def wrapIdx (i : (⟨S1700000, .i32⟩ : BufTy).Contents (Elt Ideal)) : (⟨S1700000, .i32⟩ : BufTy).Contents (Elt Ideal) :=
  select (cmpi .slt i (broadcastInDim S1700000 ![] bcast_S_S1700000 (constantI S_ 32 0#32)))
    (addi i (broadcastInDim S1700000 ![] bcast_S_S1700000 (constantI S_ 32 100000#32))) i

/-- The in-degree of every node: one added at its row for every edge that ends there. -/
def degree (col : (⟨S1700000, .i32⟩ : BufTy).Contents (Elt Ideal)) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- deg^(-1/2) where the degree is positive, zero elsewhere. -/
def invSqrtDegree (col : (⟨S1700000, .i32⟩ : BufTy).Contents (Elt Ideal)) : FVec Ideal S100000 .f32 :=
  select (cmpf .ogt (degree col) (broadcastInDim S100000 ![] bcast_S_S100000 (constant S_ .f32 0x00000000#32)))
    (Host.rsqrt (degree col))
    (broadcastInDim S100000 ![] bcast_S_S100000 (id (constant S_ .f32 0x00000000#32)))

/-- The weight of every edge: deg^(-1/2) at its source times deg^(-1/2) at its target. -/
def edgeNorm (row col : (⟨S1700000, .i32⟩ : BufTy).Contents (Elt Ideal)) : FVec Ideal S1700000 .f32 :=
  mulf
    (Host.gather gather_S100000_S1700000x1_S1700000_n_0_n_n_0_1_1 (invSqrtDegree col)
      (broadcastInDim S1700000x1 ![0] bcast_S1700000_S1700000x1_0 (wrapIdx row)))
    (Host.gather gather_S100000_S1700000x1_S1700000_n_0_n_n_0_1_1 (invSqrtDegree col)
      (broadcastInDim S1700000x1 ![0] bcast_S1700000_S1700000x1_0 (wrapIdx col)))

/-- The first layer's aggregation of the 64 hidden features `h`: gathered at the sources, weighted, added into the
    targets' rows, the bias `b` added to every row. -/
def aggregate64 (row col : (⟨S1700000, .i32⟩ : BufTy).Contents (Elt Ideal)) (nrm : FVec Ideal S1700000 .f32) (h : FVec Ideal S100000x64 .f32) (b : FVec Ideal S64 .f32) :
    FVec Ideal S100000x64 .f32 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 col)
      (mulf
        (Host.gather gather_S100000x64_S1700000x1_S1700000x64_1_0_n_n_0_1_164 h
          (broadcastInDim S1700000x1 ![0] bcast_S1700000_S1700000x1_0 (wrapIdx row)))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- The rectifier: the maximum with zero, entry by entry. -/
def rectify (x : FVec Ideal S100000x64 .f32) : FVec Ideal S100000x64 .f32 :=
  maximumf x (broadcastInDim S100000x64 ![] bcast_S_S100000x64 (constant S_ .f32 0x00000000#32))

/-- The second layer's aggregation of the one output feature. -/
def aggregate1 (row col : (⟨S1700000, .i32⟩ : BufTy).Contents (Elt Ideal)) (nrm : FVec Ideal S1700000 .f32) (h : FVec Ideal S100000x1 .f32) (b : FVec Ideal S1 .f32) :
    FVec Ideal S100000x1 .f32 :=
  addf
    (Host.scatterAdd scatter_S100000x1_S1700000x1_S1700000x1_1_0_0_1
      (broadcastInDim S100000x1 ![] bcast_S_S100000x1 (constant S_ .f32 0x00000000#32))
      (broadcastInDim S1700000x1 ![0] bcast_S1700000_S1700000x1_0 col)
      (mulf
        (Host.gather gather_S100000x1_S1700000x1_S1700000x1_1_0_n_n_0_1_11 h
          (broadcastInDim S1700000x1 ![0] bcast_S1700000_S1700000x1_0 (wrapIdx row)))
        (broadcastInDim S1700000x1 ![0] bcast_S1700000_S1700000x1_0 nrm)))
    (broadcastInDim S100000x1 ![0, 1] bcast_S1x1_S100000x1_0_1 (broadcastInDim S1x1 ![1] bcast_S1_S1x1_1 b))

/-- The [100000, 1] column as a vector. -/
def flatten (x : FVec Ideal S100000x1 .f32) : FVec Ideal S100000 .f32 :=
  shapeCast S100000 x shapeCasts_S100000x1_S100000

/-- The network's result from its six arguments: node features, edge list, and the two layers' weights and biases. -/
def result (x : FVec Ideal S100000x128 .f32) (e : (⟨S2x1600000, .i32⟩ : BufTy).Contents (Elt Ideal))
    (w1 : FVec Ideal S128x64 .f32) (b1 : FVec Ideal S64 .f32) (w2 : FVec Ideal S64x1 .f32) (b2 : FVec Ideal S1 .f32) :
    FVec Ideal S100000 .f32 :=
  flatten (aggregate1 (sources e) (targets e) (edgeNorm (sources e) (targets e))
    (Cert.MatProduct.prod (M := 100000) (K := 64) (N := 1)
      (rectify (aggregate64 (sources e) (targets e) (edgeNorm (sources e) (targets e))
        (Cert.MatProduct.prod (M := 100000) (K := 128) (N := 64) x w1) b1)) w2) b2)

end Cert.KernelIdeal.Spec

end
-- ==== Proof.KernelValue.lean ====
/-
  The value the idealized kernel's run leaves in its result array is the network's function of the arguments.

  @main is eight segments: three stretches of host operations (the index vectors and the edge weights), the first
  pallas_call, two stretches (the first layer's aggregation and the rectifier), the second pallas_call, and a last
  stretch (the second layer's aggregation and the flattening). The contents at each boundary are a fold from the launch
  memory. Each stretch, from whatever contents it starts at, leaves the corresponding piece of `Spec` of the buffers it
  reads and writes no buffer a later piece reads; each region leaves the product of the arrays it finds
  (FirstProduct, SecondProduct). Walking the boundaries back from the last to the launch composes these into `Spec.result`.
-/
import proofs.«180120_j1563368096536_1_alg».proof.Proof.Gen.KernelIdeal.Frame
import proofs.«180120_j1563368096536_1_alg».proof.Proof.FirstProduct
import proofs.«180120_j1563368096536_1_alg».proof.Proof.SecondProduct
import proofs.«180120_j1563368096536_1_alg».proof.Proof.Spec
import Idealize.ShloMosaic.Lib.StableHlo.Run
import Idealize.ShloMosaic.PureOps.Ideal

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo
open Cert.KernelIdeal.Spec

/-- Reads each remaining operation's result where it sits: at its own result buffer the operation's function of
    its operands' contents, at any other buffer what was there before. (Used for the operands of a concatenation, which sit
    inside a list of pieces and are read there one by one.) -/
local macro "chain_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## Each stretch of host operations, from any contents `G` -/

section Stretches

variable (G : Valuation τ sig (Elt Ideal))

/-- The select function's three operations (the constant passed through, broadcast, and the select): the select of the
    mask, the value and the broadcast constant found at `G`. -/
theorem where_result :
    StableHlo.after (hostOps0_1 (F := Ideal)) G (Proc.devRef .tc main_v14)
      = (select (G (Proc.devRef .tc main_v12)) (G (Proc.devRef .tc main_v13))
          (broadcastInDim S100000 ![] bcast_S_S100000 (id (G (Proc.devRef .tc main_cst_2)))) : FVec Ideal S100000 .f32) := by
  simp only [hostOps0_1]
  after_results_simp
  rfl

/-- They write neither index vector. -/
theorem where_keep_sources :
    StableHlo.after (hostOps0_1 (F := Ideal)) G (Proc.devRef .tc main_v3) = G (Proc.devRef .tc main_v3) := by
  simp only [hostOps0_1]
  after_results_simp
theorem where_keep_targets :
    StableHlo.after (hostOps0_1 (F := Ideal)) G (Proc.devRef .tc main_v6) = G (Proc.devRef .tc main_v6) := by
  simp only [hostOps0_1]
  after_results_simp

/-- The stretch after the first region: the first layer's aggregation of the region's result. -/
theorem agg_value :
    StableHlo.after (hostOps1 (F := Ideal)) G (Proc.devRef .tc main_v46)
      = aggregate64 (G (Proc.devRef .tc main_v3)) (G (Proc.devRef .tc main_v6)) (G (Proc.devRef .tc main_v29))
          (G (Proc.devRef .tc main_v30)) (G (Proc.devRef .tc main_arg3)) := by
  simp only [hostOps1]
  after_results_simp
  unfold aggregate64 wrapIdx
  rfl

/-- It writes none of the buffers read later besides. -/
theorem agg_keep_sources :
    StableHlo.after (hostOps1 (F := Ideal)) G (Proc.devRef .tc main_v3) = G (Proc.devRef .tc main_v3) := by
  simp only [hostOps1]
  after_results_simp
theorem agg_keep_targets :
    StableHlo.after (hostOps1 (F := Ideal)) G (Proc.devRef .tc main_v6) = G (Proc.devRef .tc main_v6) := by
  simp only [hostOps1]
  after_results_simp
theorem agg_keep_norm :
    StableHlo.after (hostOps1 (F := Ideal)) G (Proc.devRef .tc main_v29) = G (Proc.devRef .tc main_v29) := by
  simp only [hostOps1]
  after_results_simp
theorem agg_keep_arg4 :
    StableHlo.after (hostOps1 (F := Ideal)) G (Proc.devRef .tc main_arg4) = G (Proc.devRef .tc main_arg4) := by
  simp only [hostOps1]
  after_results_simp
theorem agg_keep_arg5 :
    StableHlo.after (hostOps1 (F := Ideal)) G (Proc.devRef .tc main_arg5) = G (Proc.devRef .tc main_arg5) := by
  simp only [hostOps1]
  after_results_simp

/-- The rectifier function's three operations (the zero, broadcast, and the maximum with it). -/
theorem relu_result :
    StableHlo.after (hostOps1_1 (F := Ideal)) G (Proc.devRef .tc main_v47)
      = rectify (G (Proc.devRef .tc main_v46)) := by
  simp only [hostOps1_1]
  after_results_simp
  unfold rectify
  rfl

/-- They write none of the buffers read later besides. -/
theorem relu_keep_sources :
    StableHlo.after (hostOps1_1 (F := Ideal)) G (Proc.devRef .tc main_v3) = G (Proc.devRef .tc main_v3) := by
  simp only [hostOps1_1]
  after_results_simp
theorem relu_keep_targets :
    StableHlo.after (hostOps1_1 (F := Ideal)) G (Proc.devRef .tc main_v6) = G (Proc.devRef .tc main_v6) := by
  simp only [hostOps1_1]
  after_results_simp
theorem relu_keep_norm :
    StableHlo.after (hostOps1_1 (F := Ideal)) G (Proc.devRef .tc main_v29) = G (Proc.devRef .tc main_v29) := by
  simp only [hostOps1_1]
  after_results_simp
theorem relu_keep_arg4 :
    StableHlo.after (hostOps1_1 (F := Ideal)) G (Proc.devRef .tc main_arg4) = G (Proc.devRef .tc main_arg4) := by
  simp only [hostOps1_1]
  after_results_simp
theorem relu_keep_arg5 :
    StableHlo.after (hostOps1_1 (F := Ideal)) G (Proc.devRef .tc main_arg5) = G (Proc.devRef .tc main_arg5) := by
  simp only [hostOps1_1]
  after_results_simp

/-- The last stretch: the second layer's aggregation of the second region's result, flattened. -/
theorem tail_value :
    StableHlo.after (hostOps2 (F := Ideal)) G (Proc.devRef .tc main_v64)
      = flatten (aggregate1 (G (Proc.devRef .tc main_v3)) (G (Proc.devRef .tc main_v6)) (G (Proc.devRef .tc main_v29))
          (G (Proc.devRef .tc main_v48)) (G (Proc.devRef .tc main_arg5))) := by
  simp only [hostOps2]
  after_results_simp
  unfold flatten aggregate1 wrapIdx
  rfl

end Stretches

/-! ## The contents at the first region's entry -/

variable (m : (ℓ : Loc nD τ sig) → Buf (Elt Ideal) ℓ) (ρ : Dev nD → PrngReg)

/-- The launch contents of a buffer are the launch memory's. -/
theorem launch_at (c : Dev nD) (b : Ref sig .tc) : W0 m ρ c (Proc.devRef .tc b) = m ((c.tc : Thread nD τ).loc b) := rfl

theorem entry_sources (c : Dev nD) : W3 m ρ c (Proc.devRef .tc main_v3) = sources (m ((c.tc : Thread nD τ).loc main_arg1)) := by
  simp only [W3, W2, W1, hostOps0_2, hostOps0_1, hostOps0]
  after_results_simp
  chain_results
  rw [launch_at m ρ c main_arg1]
  rfl

theorem entry_targets (c : Dev nD) : W3 m ρ c (Proc.devRef .tc main_v6) = targets (m ((c.tc : Thread nD τ).loc main_arg1)) := by
  simp only [W3, W2, W1, hostOps0_2, hostOps0_1, hostOps0]
  after_results_simp
  chain_results
  rw [launch_at m ρ c main_arg1]
  rfl

set_option maxHeartbeats 1000000 in
theorem entry_norm (c : Dev nD) : W3 m ρ c (Proc.devRef .tc main_v29)
    = edgeNorm (sources (m ((c.tc : Thread nD τ).loc main_arg1))) (targets (m ((c.tc : Thread nD τ).loc main_arg1))) := by
  show StableHlo.after hostOps0_2 (W2 m ρ c) (Proc.devRef .tc main_v29) = _
  -- the last nineteen operations, from whatever the select function left
  generalize hG : W2 m ρ c = G
  simp only [hostOps0_2]
  after_results_simp
  subst hG
  -- the select function, from whatever the first eighteen operations left
  rw [show W2 m ρ c = StableHlo.after hostOps0_1 (W1 m ρ c) from rfl, where_result, where_keep_sources, where_keep_targets]
  -- the first eighteen operations, from the launch
  simp only [W1, hostOps0]
  after_results_simp
  chain_results
  rw [launch_at m ρ c main_arg1]
  unfold edgeNorm invSqrtDegree degree wrapIdx sources targets
  first | rfl | fail "the two terms differ"

/-- No operation before the first region writes an argument. -/
theorem entry_arg0 (c : Dev nD) : W3 m ρ c (Proc.devRef .tc main_arg0) = m ((c.tc : Thread nD τ).loc main_arg0) := by
  simp only [W3, W2, W1, hostOps0_2, hostOps0_1, hostOps0]; after_results_simp
theorem entry_arg2 (c : Dev nD) : W3 m ρ c (Proc.devRef .tc main_arg2) = m ((c.tc : Thread nD τ).loc main_arg2) := by
  simp only [W3, W2, W1, hostOps0_2, hostOps0_1, hostOps0]; after_results_simp
theorem entry_arg3 (c : Dev nD) : W3 m ρ c (Proc.devRef .tc main_arg3) = m ((c.tc : Thread nD τ).loc main_arg3) := by
  simp only [W3, W2, W1, hostOps0_2, hostOps0_1, hostOps0]; after_results_simp
theorem entry_arg4 (c : Dev nD) : W3 m ρ c (Proc.devRef .tc main_arg4) = m ((c.tc : Thread nD τ).loc main_arg4) := by
  simp only [W3, W2, W1, hostOps0_2, hostOps0_1, hostOps0]; after_results_simp
theorem entry_arg5 (c : Dev nD) : W3 m ρ c (Proc.devRef .tc main_arg5) = m ((c.tc : Thread nD τ).loc main_arg5) := by
  simp only [W3, W2, W1, hostOps0_2, hostOps0_1, hostOps0]; after_results_simp

/-! ## The exits of the two regions -/

/-- The first region's result array at its exit: the product of the node features with the first weights, both as the
    region found them. -/
theorem exit0_result (c : Dev nD) : W4 m ρ c (Proc.devRef .tc main_v30)
    = Cert.MatProduct.prod (M := 100000) (K := 128) (N := 64) (W3 m ρ c (Proc.devRef .tc main_arg0)) (W3 m ρ c (Proc.devRef .tc main_arg2)) :=
  (W4_arr m ρ c 2).trans (Cert.KernelIdeal.FirstProduct.final (V3 m ρ) c)

/-- The second region's result array at its exit: the product of the hidden features with the second weights. -/
theorem exit1_result (c : Dev nD) : W7 m ρ c (Proc.devRef .tc main_v48)
    = Cert.MatProduct.prod (M := 100000) (K := 64) (N := 1) (W6 m ρ c (Proc.devRef .tc main_v47)) (W6 m ρ c (Proc.devRef .tc main_arg4)) :=
  (W7_arr m ρ c 2).trans (Cert.KernelIdeal.SecondProduct.final (V6 m ρ) c)

/-! ## The result -/

/-- The result array at the last boundary is the network's function of the launch memory's six arguments. -/
theorem kernel_value (c : Dev nD) : W8 m ρ c (Proc.devRef .tc main_v64)
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  show StableHlo.after hostOps2 (W7 m ρ c) (Proc.devRef .tc main_v64) = _
  -- the last stretch, then the second region's exit
  rw [tail_value (W7 m ρ c), exit1_result m ρ c, W7_of_ne m ρ c main_v3 (by decide), W7_of_ne m ρ c main_v6 (by decide),
    W7_of_ne m ρ c main_v29 (by decide), W7_of_ne m ρ c main_arg5 (by decide)]
  -- the middle stretches, then the first region's exit
  rw [show W6 m ρ c = StableHlo.after hostOps1_1 (W5 m ρ c) from rfl,
    relu_result, relu_keep_sources, relu_keep_targets, relu_keep_norm, relu_keep_arg4, relu_keep_arg5,
    show W5 m ρ c = StableHlo.after hostOps1 (W4 m ρ c) from rfl,
    agg_value, agg_keep_sources, agg_keep_targets, agg_keep_norm, agg_keep_arg4, agg_keep_arg5,
    exit0_result m ρ c, W4_of_ne m ρ c main_v3 (by decide), W4_of_ne m ρ c main_v6 (by decide),
    W4_of_ne m ρ c main_v29 (by decide), W4_of_ne m ρ c main_arg3 (by decide), W4_of_ne m ρ c main_arg4 (by decide),
    W4_of_ne m ρ c main_arg5 (by decide)]
  -- the first stretches, from the launch
  rw [entry_sources m ρ c, entry_targets m ρ c, entry_norm m ρ c, entry_arg0 m ρ c, entry_arg2 m ρ c, entry_arg3 m ρ c,
    entry_arg4 m ρ c, entry_arg5 m ρ c]
  rfl

end Cert.KernelIdeal.KernelValue

end
-- ==== Proof.ReferenceValue.lean ====
/-
  The reference's composed term is the network's function of its arguments.

  The reference's run states its result as one composed term of the launch memory's arguments. It is the same chain of
  host operations as `Spec.result` spells, with a dot_general where `Spec.result` has the matrix product; over the extended
  reals a dot_general of two matrices is their product (`Cert.MatProduct.host_eq`).
-/
import proofs.«180120_j1563368096536_1_alg».proof.Proof.RefRun
import proofs.«180120_j1563368096536_1_alg».proof.Proof.Spec

set_option maxRecDepth 16384

noncomputable section

namespace Cert.ReferenceIdeal.RefValue

open Cert.ReferenceIdeal Idealize.ShloMosaic Idealize.ShloMosaic.TcCoe Idealize.SL.Sem

set_option maxHeartbeats 2000000 in
theorem reference_value (m : (ℓ : Loc nD τ sig) → Buf (Elt Ideal) ℓ) (c : Dev nD) :
    Cert.ReferenceIdeal.RunP.res_main_v64 m c
      = Cert.KernelIdeal.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v64
  rw [show ∀ l r, Host.dotGeneral dot_S100000x128_S128x64_S100000x64_1_0_0_1_n_n none l r
        = Cert.MatProduct.prod (M := 100000) (K := 128) (N := 64) l r from fun l r => Cert.MatProduct.host_eq none l r,
    show ∀ l r, Host.dotGeneral dot_S100000x64_S64x1_S100000x1_1_0_0_1_n_n none l r
        = Cert.MatProduct.prod (M := 100000) (K := 64) (N := 1) l r from fun l r => Cert.MatProduct.host_eq none l r]
  unfold Cert.KernelIdeal.Spec.result Cert.KernelIdeal.Spec.flatten Cert.KernelIdeal.Spec.aggregate1 Cert.KernelIdeal.Spec.rectify
    Cert.KernelIdeal.Spec.aggregate64 Cert.KernelIdeal.Spec.edgeNorm Cert.KernelIdeal.Spec.invSqrtDegree Cert.KernelIdeal.Spec.degree
    Cert.KernelIdeal.Spec.wrapIdx Cert.KernelIdeal.Spec.sources Cert.KernelIdeal.Spec.targets
  first | rfl | fail "the two terms differ"

end Cert.ReferenceIdeal.RefValue

end
-- ==== Proof.lean ====
/-
  A two-layer graph convolution: self-loops are appended to the edge list, every edge gets the weight
  deg(row)^(-1/2) · deg(col)^(-1/2) from the in-degrees, and each layer multiplies the node features by a weight
  matrix, gathers the rows at the edges' sources, scales them by the edge weights, adds them into the rows of the
  edges' targets and adds a bias; a rectifier follows the first layer. The kernel's program computes the two matrix
  products (100000×128 by 128×64, then 100000×64 by 64×1) in pallas_calls over 25 row blocks of 4000 rows, the
  operands narrowed to bf16 before the product; the reference computes each with one dot_general. Everything else is
  the same chain of host operations in both programs.

  Over the extended reals the narrowing is the identity, and a block of rows of a product is the product of that
  block of rows, so each pallas_call leaves the product of its whole operands in its result array
  (Proof/FirstProduct.lean, Proof/SecondProduct.lean over Proof/MatProduct.lean), which is what dot_general computes.
  Proof/Spec.lean writes the network as one function `Spec.result` of the six arguments. The kernel's run, with its
  result array read at the last boundary of its segments (Proof/KernelRun.lean), ends at `Spec.result` of the launch
  memory's arguments: Proof/KernelValue.lean walks the boundaries back to the launch. The reference's run ends at its
  composed term (Proof/RefRun.lean), which is `Spec.result` of its arguments (Proof/ReferenceValue.lean). No law used
  needs finite entries: a sum over a finite set does not depend on an order, and nothing is cancelled or distributed.
  The three frames are the generated ones and the reference's run; the ideal pass rewrote nothing, so `preserves` is
  trivial.
-/
import proofs.«180120_j1563368096536_1_alg».proof.Defs
import proofs.«180120_j1563368096536_1_alg».proof.Proof.Gen.Kernel
import proofs.«180120_j1563368096536_1_alg».proof.Proof.Gen.Kernel.Skeleton
import proofs.«180120_j1563368096536_1_alg».proof.Proof.Gen.Kernel.Launch
import proofs.«180120_j1563368096536_1_alg».proof.Proof.Gen.Kernel.Points
import proofs.«180120_j1563368096536_1_alg».proof.Proof.Gen.Kernel.Frame
import proofs.«180120_j1563368096536_1_alg».proof.Proof.Gen.KernelIdeal
import proofs.«180120_j1563368096536_1_alg».proof.Proof.Gen.KernelIdeal.Skeleton
import proofs.«180120_j1563368096536_1_alg».proof.Proof.Gen.KernelIdeal.Launch
import proofs.«180120_j1563368096536_1_alg».proof.Proof.Gen.KernelIdeal.Points
import proofs.«180120_j1563368096536_1_alg».proof.Proof.Gen.KernelIdeal.Frame
import proofs.«180120_j1563368096536_1_alg».proof.Proof.Gen.ReferenceIdeal
import proofs.«180120_j1563368096536_1_alg».proof.Proof.Gen.Pre_finite_inputs
import proofs.«180120_j1563368096536_1_alg».proof.Proof.KernelRun
import proofs.«180120_j1563368096536_1_alg».proof.Proof.RefRun
import proofs.«180120_j1563368096536_1_alg».proof.Proof.KernelValue
import proofs.«180120_j1563368096536_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both runs end at the network's function of their own arguments; from memories that agree on the six arguments
    these are one value. The precondition is not used. -/
theorem algebraic : Cert.algebraic_KernelIdeal_ReferenceIdeal := by
  intro m ρ m' ρ' _ hagree
  refine ⟨fun c => Cert.KernelIdeal.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.kernel_value m ρ c), (h c).2⟩)
      (Cert.KernelIdeal.GenRun.run_main m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.reference_value m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
